-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2051x2048 : Shape := ⟨2, ![2051, 2048]⟩
abbrev S2048 : Shape := ⟨1, ![2048]⟩
abbrev S2048x1024 : Shape := ⟨2, ![2048, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2051x2048 : S_.BroadcastsInDim S2051x2048 (![] : Fin 0 → Fin S2051x2048.rank)
  reducesTo_S2051x2048_S_d0_1 : S2051x2048.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1024x1 .f32) (main_arg8 : FVec F S1 .f32) (main_v33 : IVec S_ 1) : IVec S_ 1 :=
  let main_v34 : FVec F S1024x1 .f32 := Host.absf main_arg7
  let main_cst_12 : FVec F S_ .f32 := constant S_ .f32 0x7F800000#32
  let main_v35 : FVec F S1024x1 .f32 := broadcastInDim S1024x1 ![] bcast_S_S1024x1 main_cst_12
  let main_v36 : IVec S1024x1 1 := cmpf .olt main_v34 main_v35
  let main_c_13 : IVec S_ 1 := constantI S_ 1 1#1
  let main_v37 : IVec S_ 1 := (fun x v => Host.reduce IntOp.andi x v reducesTo_S1024x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S2048 .f32) (main_arg5 : FVec F S2048x1024 .f32) (main_arg6 : FVec F S1024 .f32) (main_arg7 : FVec F S1024x1 .f32) (main_arg8 : FVec F S1 .f32) (main_v13 : IVec S_ 1) (main_v16 : IVec S2051x2048 1) : IVec S_ 1 :=
  let main_c_5 : IVec S_ 1 := constantI S_ 1 1#1
  let main_v17 : IVec S_ 1 := (fun x v => Host.reduce IntOp.andi x v reducesTo_S2051x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S16384x2048 .f32) (main_arg1 : FVec F S16384x2048 .f32) (main_arg2 : FVec F S16384x2048 .f32) (main_arg3 : FVec F S2051x2048 .f32) (main_arg4 : FVec F S2048 .f32) (main_arg5 : FVec F S2048x1024 .f32) (main_arg6 : FVec F S1024 .f32) (main_arg7 : FVec F S1024x1 .f32) (main_arg8 : FVec F S1 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S16384x2048 .f32 := Host.absf main_arg2
  let main_cst_2 : FVec F S_ .f32 := constant S_ .f32 0x7F800000#32
  let main_v10 : FVec F S16384x2048 .f32 := broadcastInDim S16384x2048 ![] bcast_S_S16384x2048 main_cst_2
  let main_v11 : IVec S16384x2048 1 := cmpf .olt main_v9 main_v10
  let main_c_3 : IVec S_ 1 := constantI S_ 1 1#1
  let main_v12 : IVec S_ 1 := (fun x v => Host.reduce IntOp.andi x v reducesTo_S16384x2048_S_d0_1 h_S_) main_v11 main_c_3
  let main_v13 : IVec S_ 1 := andi main_v8 main_v12
  let main_v14 : FVec F S2051x2048 .f32 := Host.absf main_arg3
  let main_cst_4 : FVec F S_ .f32 := constant S_ .f32 0x7F800000#32
  let main_v15 : FVec F S2051x2048 .f32 := broadcastInDim S2051x2048 ![] bcast_S_S2051x2048 main_cst_4
  let main_v16 : IVec S2051x2048 1 := cmpf .olt main_v14 main_v15
  fn_part1 (F := F) main_arg4 main_arg5 main_arg6 main_arg7 main_arg8 main_v13 main_v16
-- ==== Kernel.lean ====
abbrev S16384x2048 : Shape := ⟨2, ![16384, 2048]⟩
abbrev S2051x2048 : Shape := ⟨2, ![2051, 2048]⟩
abbrev S2048 : Shape := ⟨1, ![2048]⟩
abbrev S2048x1024 : Shape := ⟨2, ![2048, 1024]⟩
abbrev S1024 : Shape := ⟨1, ![1024]⟩
abbrev S1024x1 : Shape := ⟨2, ![1024, 1]⟩
abbrev S1 : Shape := ⟨1, ![1]⟩
abbrev S2048x2048 : Shape := ⟨2, ![2048, 2048]⟩
abbrev S1x2048 : Shape := ⟨2, ![1, 2048]⟩
abbrev S1x1024 : Shape := ⟨2, ![1, 1024]⟩
abbrev S1x1 : Shape := ⟨2, ![1, 1]⟩
abbrev S16384x1 : Shape := ⟨2, ![16384, 1]⟩
abbrev S256x2048 : Shape := ⟨2, ![256, 2048]⟩
abbrev S256x1 : Shape := ⟨2, ![256, 1]⟩
abbrev S256 : Shape := ⟨1, ![256]⟩
abbrev S256x1024 : Shape := ⟨2, ![256, 1024]⟩

abbrev nBuf : Space → Nat
  | .hbm => 20
  | .vmem => 17
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S2051x2048, .f32⟩
  | .hbm, ⟨4, _⟩ => ⟨S2048, .f32⟩
  | .hbm, ⟨5, _⟩ => ⟨S2048x1024, .f32⟩
  | .hbm, ⟨6, _⟩ => ⟨S1024, .f32⟩
  | .hbm, ⟨7, _⟩ => ⟨S1024x1, .f32⟩
  | .hbm, ⟨8, _⟩ => ⟨S1, .f32⟩
  | .hbm, ⟨9, _⟩ => ⟨S2048x2048, .f32⟩
  | .hbm, ⟨10, _⟩ => ⟨S2048x2048, .bf16⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S2048x1024, .bf16⟩
  | .hbm, ⟨16, _⟩ => ⟨S1x1024, .f32⟩
  | .hbm, ⟨17, _⟩ => ⟨S1024x1, .bf16⟩
  | .hbm, ⟨18, _⟩ => ⟨S1x1, .f32⟩
  | .hbm, ⟨19, _⟩ => ⟨S16384x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S2048x1024, .bf16⟩
  | .local _ .vmem, ⟨12, _⟩ => ⟨S1x1024, .f32⟩
  | .local _ .vmem, ⟨13, _⟩ => ⟨S1024x1, .bf16⟩
  | .local _ .vmem, ⟨14, _⟩ => ⟨S1x1, .f32⟩
  | .local _ .vmem, ⟨15, _⟩ => ⟨S256x1, .f32⟩
  | .local _ .vmem, ⟨16, _⟩ => ⟨S256x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S2051x2048_S2048x2048_0_0 : S2051x2048.Slices ![0, 0] S2048x2048
  bitsLt_bf16_f32 : FTy.bits .bf16 < FTy.bits .f32
  slices_S2051x2048_S1x2048_2048_0 : S2051x2048.Slices ![2048, 0] S1x2048
  slices_S2051x2048_S1x2048_2049_0 : S2051x2048.Slices ![2049, 0] S1x2048
  slices_S2051x2048_S1x2048_2050_0 : S2051x2048.Slices ![2050, 0] S1x2048
  shapeCasts_S2048_S1x2048 : S2048.ShapeCasts S1x2048
  shapeCasts_S1024_S1x1024 : S1024.ShapeCasts S1x1024
  shapeCasts_S1_S1x1 : S1.ShapeCasts S1x1
  inb_S256x2048_S256x2048_0_0 : ∀ a, (![0, 0] : Fin 2 → Nat) a + S256x2048.size a ≤ S256x2048.size a
  h_S256x2048 : 0 < S256x2048.numel
  reduces_S256x2048_S256 : S256x2048.Reduces [1] S256
  shapeCasts_S256_S256x1 : S256.ShapeCasts S256x1
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S256x1_S256x2048 : S256x1.Broadcasts S256x2048
  broadcasts_S1x2048_S256x2048 : S1x2048.Broadcasts S256x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  dot_S256x2048_S2048x2048_S256x2048_1_0_0_1_n_n_wf : DotDims.WF S256x2048 S2048x2048 S256x2048 [1] [0] [0] [1] [] []
  dot_S256x2048_S2048x1024_S256x1024_1_0_0_1_n_n_wf : DotDims.WF S256x2048 S2048x1024 S256x1024 [1] [0] [0] [1] [] []
  dot_S256x1024_S1024x1_S256x1_1_0_0_1_n_n_wf : DotDims.WF S256x1024 S1024x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S16384x2048.size a
  hwx0_1 : ∀ i : grid0.Coords, EltTy.bits .f32 = 32 ∨ (Rect.block (s := S16384x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S16384x2048.size a
  hwx0_2 : ∀ i : grid0.Coords, EltTy.bits .f32 = 32 ∨ (Rect.block (s := S16384x2048) S256x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048x1024.size a ≤ S2048x1024.size a
  hwx0_8 : ∀ i : grid0.Coords, EltTy.bits .bf16 = 32 ∨ (Rect.block (s := S2048x1024) S2048x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1.size a ≤ S1024x1.size a
  hwx0_10 : ∀ i : grid0.Coords, EltTy.bits .bf16 = 32 ∨ (Rect.block (s := S1024x1) S1024x1.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x1.size a ≤ S16384x1.size a
  hwx0_12 : ∀ i : grid0.Coords, EltTy.bits .f32 = 32 ∨ (Rect.block (s := S16384x1) S256x1.size (cc0_transform_12 i) (hinb0_12 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x1_S256x1_1_0_0_1_n_n : DotDims S256x1024 S1024x1 S256x1 where
  lhsContracting := [1]
  rhsContracting := [0]
  lhsNonContracting := [0]
  rhsNonContracting := [1]
  lhsBatch := []
  rhsBatch := []
  wf := dot_S256x1024_S1024x1_S256x1_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S2048x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1024x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v10) S256x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2051x2048 : Shape := ⟨2, ![2051, 2048]⟩
abbrev S2048 : Shape := ⟨1, ![2048]⟩
abbrev S2048x1024 : Shape := ⟨2, ![2048, 1024]⟩
abbrev S1024 : Shape := ⟨1, ![1024]⟩
abbrev S1024x1 : Shape := ⟨2, ![1024, 1]⟩
abbrev S1 : Shape := ⟨1, ![1]⟩
abbrev S_ : Shape := ⟨0, ![]⟩
abbrev S16384 : Shape := ⟨1, ![16384]⟩
abbrev S16384x1 : Shape := ⟨2, ![16384, 1]⟩
abbrev S16384x2051 : Shape := ⟨2, ![16384, 2051]⟩
abbrev S1x2048 : Shape := ⟨2, ![1, 2048]⟩
abbrev S16384x1024 : Shape := ⟨2, ![16384, 1024]⟩
abbrev S1x1024 : Shape := ⟨2, ![1, 1024]⟩
abbrev S1x1 : Shape := ⟨2, ![1, 1]⟩

abbrev nBuf : Space → Nat
  | .hbm => 64
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S2051x2048, .f32⟩
  | .hbm, ⟨4, _⟩ => ⟨S2048, .f32⟩
  | .hbm, ⟨5, _⟩ => ⟨S2048x1024, .f32⟩
  | .hbm, ⟨6, _⟩ => ⟨S1024, .f32⟩
  | .hbm, ⟨7, _⟩ => ⟨S1024x1, .f32⟩
  | .hbm, ⟨8, _⟩ => ⟨S1, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x2051, .f32⟩
  | .hbm, ⟨38, _⟩ => ⟨S16384x2048, .f32⟩
  | .hbm, ⟨39, _⟩ => ⟨S1x2048, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384x2048, .f32⟩
  | .hbm, ⟨44, _⟩ => ⟨S16384x2048, .f32⟩
  | .hbm, ⟨45, _⟩ => ⟨S16384x1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S16384x1, .f32⟩
  | .hbm, ⟨53, _⟩ => ⟨S1x1, .f32⟩
  | .hbm, ⟨54, _⟩ => ⟨S16384x1, .f32⟩
  | .hbm, ⟨55, _⟩ => ⟨S16384x1, .f32⟩
  | .hbm, ⟨56, _⟩ => ⟨S16384x1, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_call2_cst : Ref sig .tc := ⟨.hbm, 42, rfl⟩
abbrev main_call2_v0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_call3_cst : Ref sig .tc := ⟨.hbm, 49, rfl⟩
abbrev main_call3_v0 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_3 : Ref sig .tc := ⟨.hbm, 58, rfl⟩
abbrev main_v33 : Ref sig .tc := ⟨.hbm, 59, rfl⟩
abbrev main_v34 : Ref sig .tc := ⟨.hbm, 60, rfl⟩
abbrev main_cst_4 : Ref sig .tc := ⟨.hbm, 61, rfl⟩
abbrev main_v35 : Ref sig .tc := ⟨.hbm, 62, rfl⟩
abbrev main_v36 : Ref sig .tc := ⟨.hbm, 63, rfl⟩

abbrev nD : Nat := 1
abbrev τ : Topo := Topo.v7x

variable {F : FTy → Type} [FloatOps F]

class Facts₀ : Prop where
  reducesTo_S16384x2048_S16384_d1 : S16384x2048.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x2048_0_1 : S16384x1.BroadcastsInDim S16384x2048 (![0, 1] : Fin 2 → Fin S16384x2048.rank)
  concatenates_S16384x2048_S16384x1_S16384x1_S16384x1_S16384x2051_d1 : Shape.Concatenates [S16384x2048, S16384x1, S16384x1, S16384x1] S16384x2051 1
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  dot_S16384x2051_S2051x2048_S16384x2048_1_0_0_1_n_n_wf : DotDims.WF S16384x2051 S2051x2048 S16384x2048 [1] [0] [0] [1] [] []
  dot_S16384x2048_S2048x1024_S16384x1024_1_0_0_1_n_n_wf : DotDims.WF S16384x2048 S2048x1024 S16384x1024 [1] [0] [0] [1] [] []
  dot_S16384x1024_S1024x1_S16384x1_1_0_0_1_n_n_wf : DotDims.WF S16384x1024 S1024x1 S16384x1 [1] [0] [0] [1] [] []

variable [Facts₀]

def dot_S16384x2051_S2051x2048_S16384x2048_1_0_0_1_n_n : DotDims S16384x2051 S2051x2048 S16384x2048 where
  lhsContracting := [1]
  rhsContracting := [0]
  lhsNonContracting := [0]
  rhsNonContracting := [1]
  lhsBatch := []
  rhsBatch := []
  wf := dot_S16384x2051_S2051x2048_S16384x2048_1_0_0_1_n_n_wf
def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf
def dot_S16384x1024_S1024x1_S16384x1_1_0_0_1_n_n : DotDims S16384x1024 S1024x1 S16384x1 where
  lhsContracting := [1]
  rhsContracting := [0]
  lhsNonContracting := [0]
  rhsNonContracting := [1]
  lhsBatch := []
  rhsBatch := []
  wf := dot_S16384x1024_S1024x1_S16384x1_1_0_0_1_n_n_wf

class Facts : Prop extends Facts₀ where

variable [Facts]
-- ==== Proof.Spec.lean ====
/-
  The document head, one batch row at a time, on the extended reals.

  A row's result depends on the three input rows only: the cosine alignment `a` of the claim and document rows, clamped
  lengths in the denominator; then `d = 1 - a`, `t = d · d`; a first layer whose weight matrix has 2048 rows for the
  hidden row and one row each for `a`, `d`, `t`; a second layer; and a one-column head under the logistic function.

  The alignment is written in two ways. `alignQuot` divides the dot product by the product of the two clamped lengths;
  `alignUnit` divides each row by its clamped length first and takes the dot product afterwards. On rows of real
  numbers the clamped lengths are positive reals, so both are the real number `(∑ xₖ yₖ) / (c · d)`: `alignUnit_eq_alignQuot`.
  Off the reals the two differ (an infinite length makes every quotient of the second form zero), which is why the rows are
  assumed real.
-/
import Idealize.ShloMosaic.PureOps.Ideal.Laws
import Idealize.ShloMosaic.Lib.ValueIdx
import Idealize.ShloMosaic.Lib.IdealHost

noncomputable section

namespace Cert.DocHead

open Idealize.ShloMosaic Idealize.ShloMosaic.ValueIdx

/-! ## Real sums inside the extended reals -/

/-- The inclusion of the reals commutes with finite sums. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The clamp `ε`: a positive real. -/
theorem eps_pos : ∃ e : ℝ, 0 < e ∧ Ideal.ofBits .f32 0x2B8CBCCC#32 = (e : EReal) := by
  refine ⟨(9223372 : ℝ) * (2 : ℝ) ^ (-63 : ℤ), by positivity, ?_⟩
  simp [Ideal.ofBits, Ideal.ieee, -EReal.coe_mul]

/-! ## The alignment of two rows -/

variable {n : ℕ}

/-- A row's clamped length `max (√(∑ₖ vₖ²)) ε`. -/
def clampedNorm (v : Fin n → EReal) : EReal :=
  max (Ideal.sqrt (∑ k, v k * v k)) (Ideal.ofBits .f32 0x2B8CBCCC#32)

/-- The dot product over the product of the clamped lengths. -/
def alignQuot (x y : Fin n → EReal) : EReal :=
  Ideal.div (∑ k, x k * y k) (clampedNorm x * clampedNorm y)

/-- The dot product of the two rows, each divided by its clamped length. -/
def alignUnit (x y : Fin n → EReal) : EReal :=
  ∑ k, Ideal.div (x k) (clampedNorm x) * Ideal.div (y k) (clampedNorm y)

/-- The clamped length of a real row is a positive real. -/
theorem clampedNorm_coe (x : Fin n → ℝ) : ∃ c : ℝ, 0 < c ∧ clampedNorm (fun k => (x k : EReal)) = (c : EReal) := by
  obtain ⟨e, he, hw⟩ := eps_pos
  refine ⟨max (Real.sqrt (∑ k, x k * x k)) e, lt_max_of_lt_right he, ?_⟩
  have hs : (∑ k, ((x k : EReal)) * (x k : EReal)) = ((∑ k, x k * x k : ℝ) : EReal) := by
    rw [coe_sum]; exact Finset.sum_congr rfl fun k _ => (EReal.coe_mul _ _).symm
  have hn : ¬ (∑ k, x k * x k : ℝ) < 0 := not_lt.mpr (Finset.sum_nonneg fun k _ => mul_self_nonneg (x k))
  unfold clampedNorm
  rw [hs, hw, Ideal.sqrt_coe, if_neg hn]
  exact (EReal.coe_strictMono.monotone.map_max).symm

/-- A quotient of reals by a nonzero real. -/
theorem div_coe_coe (a c : ℝ) (hc : c ≠ 0) : Ideal.div (a : EReal) (c : EReal) = ((a / c : ℝ) : EReal) := by
  rw [Ideal.div_coe hc, ← EReal.coe_mul, mul_one_div]

/-- On real rows the two forms of the alignment agree. -/
theorem alignUnit_eq_alignQuot (x y : Fin n → EReal) (hx : ∀ k, ∃ r : ℝ, x k = (r : EReal)) (hy : ∀ k, ∃ r : ℝ, y k = (r : EReal)) :
    alignUnit x y = alignQuot x y := by
  choose x' hx' using hx
  choose y' hy' using hy
  obtain rfl : x = fun k => (x' k : EReal) := funext hx'
  obtain rfl : y = fun k => (y' k : EReal) := funext hy'
  obtain ⟨c, hc, ec⟩ := clampedNorm_coe x'
  obtain ⟨d, hd, ed⟩ := clampedNorm_coe y'
  unfold alignUnit alignQuot
  rw [ec, ed]
  have h1 : ∀ k, Ideal.div ((x' k : ℝ) : EReal) (c : EReal) * Ideal.div ((y' k : ℝ) : EReal) (d : EReal)
      = ((x' k / c * (y' k / d) : ℝ) : EReal) := fun k => by
    rw [div_coe_coe _ _ hc.ne', div_coe_coe _ _ hd.ne', ← EReal.coe_mul]
  have h2 : (∑ k, ((x' k : ℝ) : EReal) * ((y' k : ℝ) : EReal)) = ((∑ k, x' k * y' k : ℝ) : EReal) := by
    rw [coe_sum]; exact Finset.sum_congr rfl fun k _ => (EReal.coe_mul _ _).symm
  rw [Finset.sum_congr rfl fun k _ => h1 k, ← coe_sum, h2, ← EReal.coe_mul, div_coe_coe _ _ (mul_pos hc hd).ne']
  congr 1
  rw [Finset.sum_div]
  exact Finset.sum_congr rfl fun k _ => by rw [div_mul_div_comm]

/-! ## The head over one row -/

/-- The first layer's weight rows: the hidden row's 2048, then one each for the alignment, the divergence and the tension. -/
abbrev rowMain (k : Fin 2048) : Fin 2051 := k.castSucc.castSucc.castSucc
abbrev rowAlign : Fin 2051 := (Fin.last 2048).castSucc.castSucc
abbrev rowDiv : Fin 2051 := (Fin.last 2049).castSucc
abbrev rowTens : Fin 2051 := Fin.last 2050

/-- The first layer at column `j`: the hidden row against the main block, plus the three feature terms, plus the bias, clamped
    at zero. The sum is associated the way both programs add it: main block, alignment, divergence, tension, bias. -/
def layer1 (a : EReal) (h : Fin 2048 → EReal) (W1 : (⟨2, ![2051, 2048]⟩ : Shape).Idx → EReal)
    (b1 : (⟨1, ![2048]⟩ : Shape).Idx → EReal) (j : Fin 2048) : EReal :=
  max (((((∑ k : Fin 2048, h k * W1 (ix2 (rowMain k) j)) + a * W1 (ix2 rowAlign j))
        + (Ideal.ofBits .f32 0x3F800000#32 - a) * W1 (ix2 rowDiv j))
        + ((Ideal.ofBits .f32 0x3F800000#32 - a) * (Ideal.ofBits .f32 0x3F800000#32 - a)) * W1 (ix2 rowTens j))
        + b1 (ix1 j))
    (Ideal.ofBits .f32 0x00000000#32)

/-- The second layer at column `j`, clamped at zero. -/
def layer2 (g : Fin 2048 → EReal) (W2 : (⟨2, ![2048, 1024]⟩ : Shape).Idx → EReal)
    (b2 : (⟨1, ![1024]⟩ : Shape).Idx → EReal) (j : Fin 1024) : EReal :=
  max ((∑ k : Fin 2048, g k * W2 (ix2 k j)) + b2 (ix1 j)) (Ideal.ofBits .f32 0x00000000#32)

/-- The retrieval score of a row from its alignment `a` and its hidden row `h`. -/
def score (a : EReal) (h : Fin 2048 → EReal) (W1 : (⟨2, ![2051, 2048]⟩ : Shape).Idx → EReal)
    (b1 : (⟨1, ![2048]⟩ : Shape).Idx → EReal) (W2 : (⟨2, ![2048, 1024]⟩ : Shape).Idx → EReal)
    (b2 : (⟨1, ![1024]⟩ : Shape).Idx → EReal) (Wr : (⟨2, ![1024, 1]⟩ : Shape).Idx → EReal)
    (br : (⟨1, ![1]⟩ : Shape).Idx → EReal) : EReal :=
  Ideal.logistic ((∑ k : Fin 1024, layer2 (layer1 a h W1 b1) W2 b2 k * Wr (ix2 k (0 : Fin 1))) + br (ix1 (0 : Fin 1)))

/-- The whole result array: row `r`'s score, its alignment in the quotient form. -/
def result (h vc vd : (⟨2, ![16384, 2048]⟩ : Shape).Idx → EReal) (W1 : (⟨2, ![2051, 2048]⟩ : Shape).Idx → EReal)
    (b1 : (⟨1, ![2048]⟩ : Shape).Idx → EReal) (W2 : (⟨2, ![2048, 1024]⟩ : Shape).Idx → EReal)
    (b2 : (⟨1, ![1024]⟩ : Shape).Idx → EReal) (Wr : (⟨2, ![1024, 1]⟩ : Shape).Idx → EReal)
    (br : (⟨1, ![1]⟩ : Shape).Idx → EReal) : (⟨2, ![16384, 1]⟩ : Shape).Idx → EReal :=
  fun i => score (alignQuot (fun k => vc (ix2 (i 0) k)) (fun k => vd (ix2 (i 0) k))) (fun k => h (ix2 (i 0) k)) W1 b1 W2 b2 Wr br

end Cert.DocHead

end
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.Payload.lean ====
/-
  What one grid point stores, read at a row of its block.

  The body of the kernel works on a block of 256 batch rows. Its stored value at row `p` depends on row `p` of the three
  input blocks only: the alignment of rows `p` of the claim and document blocks in the quotient form, the first layer
  as the matrix product of the hidden row with the main weight block plus the three feature rows scaled by the alignment,
  the divergence and the tension, and the two further layers. Format changes are the identity on the extended reals, so
  the weight blocks enter as they are. The weight blocks are related to the argument arrays by hypotheses here (which
  rows of the first weight matrix each block holds); the block-to-array step supplies them.
-/
import proofs.«162911_j83528523973131_1_alg».proof.Proof.Gen.KernelIdeal.Skeleton
import proofs.«162911_j83528523973131_1_alg».proof.Proof.Spec
import proofs.«162911_j83528523973131_1_alg».proof.Proof.LibRowwise
import Idealize.ShloMosaic.Lib.ValueLayout
import Idealize.ShloMosaic.Lib.Pipeline.Value

noncomputable section

namespace Cert.DocHead.Body

open Idealize.ShloMosaic Idealize.ShloMosaic.ValueIdx Cert.KernelIdeal Cert.KernelIdeal.Gen Cert.Lib.Rowwise Cert.DocHead

/-! ## The three matrix products are plain ones -/

theorem dot_main : dot_S256x2048_S2048x2048_S256x2048_1_0_0_1_n_n = DotDims.plain 256 2048 2048 :=
  eq_plain _ rfl rfl rfl rfl rfl rfl
theorem dot_second : dot_S256x2048_S2048x1024_S256x1024_1_0_0_1_n_n = DotDims.plain 256 2048 1024 :=
  eq_plain _ rfl rfl rfl rfl rfl rfl
theorem dot_head : dot_S256x1024_S1024x1_S256x1_1_0_0_1_n_n = DotDims.plain 256 1024 1 :=
  eq_plain _ rfl rfl rfl rfl rfl rfl

/-! ## Pointwise operations the library does not read at an index -/

theorem sqrt_apply {s : Shape} {φ : FTy} (a : FVec Ideal s φ) (i : s.Idx) : sqrt a i = Ideal.sqrt (a i) := rfl
theorem logistic_apply {s : Shape} {φ : FTy} (a : FVec Ideal s φ) (i : s.Idx) : logistic a i = Ideal.logistic (a i) := rfl

/-- A column of 256 entries broadcast along 2048 lanes. -/
theorem column2048_apply {α : Type} (v : (⟨2, ![256, 1]⟩ : Shape).Idx → α) (h : (⟨2, ![256, 1]⟩ : Shape).Broadcasts ⟨2, ![256, 2048]⟩)
    (p : Fin 256) (q : Fin 2048) : broadcastTo ⟨2, ![256, 2048]⟩ v h (ix2 p q) = v (ix2 p (0 : Fin 1)) :=
  columnBroadcast_apply v h (by decide) p q

/-- A lane sum of a block from the zero word, at row `p`: the sum of the row. -/
theorem rowSum_apply (src : FVec Ideal S256x2048 .f32) (hφ : FTy.f32 = FTy.f32 ∨ FTy.f32 = FTy.bf16)
    (hacc : (0x00000000#32 : BitVec 32) = 0x00000000#32) (p : Fin 256) :
    multiReduction (F := Ideal) .add [1] S256 src 0x00000000#32 reduces_S256x2048_S256 hφ hacc (ix1 p)
      = ∑ k : Fin 2048, src (ix2 p k) :=
  laneSum_apply src 0x00000000#32 reduces_S256x2048_S256 hφ hacc p

/-! ## The alignment, the divergence and the tension of a row -/

/-- The alignment payload at row `p`: the quotient form over rows `p` of the two blocks. -/
theorem align_apply (v1 v2 : Vec Ideal S256x2048 .f32) (p : Fin 256) (u : Fin 1) :
    k0_pay2 (F := Ideal) v1 v2 (ix2 p u) = alignQuot (fun k => v1 (ix2 p k)) (fun k => v2 (ix2 p k)) := by
  unfold k0_pay2 alignQuot clampedNorm
  dsimp only
  simp only [divf_apply, mulf_apply, maximumf_apply, sqrt_apply, broadcast_apply, column_apply]
  rw [rowSum_apply (mulf v1 v2), rowSum_apply (mulf v1 v1), rowSum_apply (mulf v2 v2)]
  rfl

/-- The divergence payload at row `p`: one minus the alignment. -/
theorem diverge_apply (v1 v2 : Vec Ideal S256x2048 .f32) (p : Fin 256) (u : Fin 1) :
    k0_pay3 (F := Ideal) v1 v2 (ix2 p u)
      = Ideal.ofBits .f32 0x3F800000#32 - alignQuot (fun k => v1 (ix2 p k)) (fun k => v2 (ix2 p k)) := by
  unfold k0_pay3
  simp only [subf_apply, broadcast_apply, align_apply]
  rfl

/-- The tension payload at row `p`: the divergence squared. -/
theorem tension_apply (v1 v2 : Vec Ideal S256x2048 .f32) (p : Fin 256) (u : Fin 1) :
    k0_pay4 (F := Ideal) v1 v2 (ix2 p u)
      = (Ideal.ofBits .f32 0x3F800000#32 - alignQuot (fun k => v1 (ix2 p k)) (fun k => v2 (ix2 p k)))
        * (Ideal.ofBits .f32 0x3F800000#32 - alignQuot (fun k => v1 (ix2 p k)) (fun k => v2 (ix2 p k))) := by
  unfold k0_pay4
  simp only [mulf_apply, diverge_apply]

/-- The first layer's partial sum at `(p, j)`: the main product plus the alignment and divergence terms. -/
theorem partial_apply (v0 v1 v2 : Vec Ideal S256x2048 .f32) (v24 : Vec Ideal S2048x2048 .bf16) (v27 v33 : Vec Ideal S1x2048 .f32)
    (p : Fin 256) (j : Fin 2048) :
    k0_pay5 (F := Ideal) v0 v1 v2 v24 v27 v33 (ix2 p j)
      = ((∑ k : Fin 2048, v0 (ix2 p k) * v24 (ix2 k j))
          + alignQuot (fun k => v1 (ix2 p k)) (fun k => v2 (ix2 p k)) * v27 (ix2 (0 : Fin 1) j))
        + (Ideal.ofBits .f32 0x3F800000#32 - alignQuot (fun k => v1 (ix2 p k)) (fun k => v2 (ix2 p k))) * v33 (ix2 (0 : Fin 1) j) := by
  unfold k0_pay5
  simp only [dot_main, addf_apply, mulf_apply, plain_matmul_zero_apply, truncf_apply, shapeCast_self, column2048_apply,
    broadcastTo_1b_ab_apply, align_apply, diverge_apply]

/-! ## The stored value at a row -/

/-- The value the point stores at row `p` is the row's score, when the weight blocks are the pieces of the argument
    arrays the host operations cut: the main rows, the three feature rows, the biases as one-row matrices. -/
theorem stored_apply (x0 x1 x2 : Vec Ideal S256x2048 .f32) (x3 : Vec Ideal S2048x2048 .bf16) (x4 x5 x6 x7 : Vec Ideal S1x2048 .f32)
    (x8 : Vec Ideal S2048x1024 .bf16) (x9 : Vec Ideal S1x1024 .f32) (x10 : Vec Ideal S1024x1 .bf16) (x11 : Vec Ideal S1x1 .f32)
    (W1 : (⟨2, ![2051, 2048]⟩ : Shape).Idx → EReal) (b1 : (⟨1, ![2048]⟩ : Shape).Idx → EReal)
    (W2 : (⟨2, ![2048, 1024]⟩ : Shape).Idx → EReal) (b2 : (⟨1, ![1024]⟩ : Shape).Idx → EReal)
    (Wr : (⟨2, ![1024, 1]⟩ : Shape).Idx → EReal) (br : (⟨1, ![1]⟩ : Shape).Idx → EReal)
    (h3 : ∀ (k j : Fin 2048), x3 (ix2 k j) = W1 (ix2 (rowMain k) j))
    (h4 : ∀ j : Fin 2048, x4 (ix2 (0 : Fin 1) j) = W1 (ix2 rowAlign j))
    (h5 : ∀ j : Fin 2048, x5 (ix2 (0 : Fin 1) j) = W1 (ix2 rowDiv j))
    (h6 : ∀ j : Fin 2048, x6 (ix2 (0 : Fin 1) j) = W1 (ix2 rowTens j))
    (h7 : ∀ j : Fin 2048, x7 (ix2 (0 : Fin 1) j) = b1 (ix1 j))
    (h8 : ∀ (k : Fin 2048) (j : Fin 1024), x8 (ix2 k j) = W2 (ix2 k j))
    (h9 : ∀ j : Fin 1024, x9 (ix2 (0 : Fin 1) j) = b2 (ix1 j))
    (h10 : ∀ k : Fin 1024, x10 (ix2 k (0 : Fin 1)) = Wr (ix2 k (0 : Fin 1)))
    (h11 : x11 (ix2 (0 : Fin 1) (0 : Fin 1)) = br (ix1 (0 : Fin 1)))
    (p : Fin 256) :
    k0_pay1 (F := Ideal) (k0_pay4 x1 x2) (k0_pay5 x0 x1 x2 x3 x4 x5) x6 x7 x8 x9 x10 x11 (ix2 p (0 : Fin 1))
      = score (alignQuot (fun k => x1 (ix2 p k)) (fun k => x2 (ix2 p k))) (fun k => x0 (ix2 p k)) W1 b1 W2 b2 Wr br := by
  unfold k0_pay1 score layer2 layer1
  dsimp only
  simp only [dot_second, dot_head, logistic_apply, addf_apply, mulf_apply, maximumf_apply, broadcast_apply, plain_matmul_zero_apply,
    truncf_apply, shapeCast_self, column2048_apply, broadcastTo_1b_ab_apply, tension_apply, partial_apply,
    h3, h4, h5, h6, h7, h8, h9, h10, h11]
  rfl

end Cert.DocHead.Body

end
-- ==== Proof.HostArrays.lean ====
/-
  The arrays the host operations hand the region, read at an index of the argument arrays.

  Before the region the program cuts the first weight matrix into its 2048 main rows and its three feature rows (rows
  2048, 2049 and 2050), reshapes the three bias vectors into one-row matrices, and changes the format of the three weight
  matrices the products read, which on the extended reals changes nothing. So each entry of an array the region stages is
  one entry of an argument array.
-/
import proofs.«162911_j83528523973131_1_alg».proof.Proof.Gen.KernelIdeal.Frame
import proofs.«162911_j83528523973131_1_alg».proof.Proof.Spec
import Idealize.ShloMosaic.Lib.ValueLayout
import Idealize.ShloMosaic.Lib.StableHlo.Run

noncomputable section

namespace Cert.DocHead.Host

open Idealize.ShloMosaic Idealize.ShloMosaic.TcCoe Idealize.ShloMosaic.ValueIdx Idealize.ShloMosaic.StableHlo Idealize.SL.Sem
open Cert.KernelIdeal Cert.KernelIdeal.Gen Cert.DocHead

variable (m : (ℓ : Loc nD τ sig) → Buf (Elt Ideal) ℓ)

/-- The main weight block: rows 0 to 2047 of the first weight matrix. -/
theorem mainRows_apply (c : Dev nD) (k j : Fin 2048) :
    (V m c main_v1 : S2048x2048.Idx → EReal) (ix2 k j)
      = (m ((c : Thread nD τ).loc main_arg3) : S2051x2048.Idx → EReal) (ix2 (rowMain k) j) := by
  have e : (V m c main_v1 : S2048x2048.Idx → EReal)
      = truncf (F := Ideal) .bf16 (extractStridedSlice S2048x2048 ![0, 0]
          (m ((c : Thread nD τ).loc main_arg3) : S2051x2048.Idx → EReal) slices_S2051x2048_S2048x2048_0_0) bitsLt_bf16_f32 := by
    dsimp only [V, hostOps0]; after_results; all_goals rfl
  rw [e]
  show extractStridedSlice S2048x2048 ![0, 0] (m ((c : Thread nD τ).loc main_arg3) : S2051x2048.Idx → EReal)
    slices_S2051x2048_S2048x2048_0_0 (ix2 k j) = _
  exact slice2_axis0_apply 0 _ _ k j (rowMain k) (Nat.zero_add _).symm

/-- The alignment's weight row: row 2048. -/
theorem alignRow_apply (c : Dev nD) (j : Fin 2048) :
    (V m c main_v2 : S1x2048.Idx → EReal) (ix2 (0 : Fin 1) j)
      = (m ((c : Thread nD τ).loc main_arg3) : S2051x2048.Idx → EReal) (ix2 rowAlign j) := by
  have e : (V m c main_v2 : S1x2048.Idx → EReal)
      = extractStridedSlice S1x2048 ![2048, 0]
          (m ((c : Thread nD τ).loc main_arg3) : S2051x2048.Idx → EReal) slices_S2051x2048_S1x2048_2048_0 := by
    dsimp only [V, hostOps0]; after_results; all_goals rfl
  rw [e]
  exact slice2_axis0_apply 2048 _ _ (0 : Fin 1) j rowAlign rfl

/-- The divergence's weight row: row 2049. -/
theorem divRow_apply (c : Dev nD) (j : Fin 2048) :
    (V m c main_v3 : S1x2048.Idx → EReal) (ix2 (0 : Fin 1) j)
      = (m ((c : Thread nD τ).loc main_arg3) : S2051x2048.Idx → EReal) (ix2 rowDiv j) := by
  have e : (V m c main_v3 : S1x2048.Idx → EReal)
      = extractStridedSlice S1x2048 ![2049, 0]
          (m ((c : Thread nD τ).loc main_arg3) : S2051x2048.Idx → EReal) slices_S2051x2048_S1x2048_2049_0 := by
    dsimp only [V, hostOps0]; after_results; all_goals rfl
  rw [e]
  exact slice2_axis0_apply 2049 _ _ (0 : Fin 1) j rowDiv rfl

/-- The tension's weight row: row 2050. -/
theorem tensRow_apply (c : Dev nD) (j : Fin 2048) :
    (V m c main_v4 : S1x2048.Idx → EReal) (ix2 (0 : Fin 1) j)
      = (m ((c : Thread nD τ).loc main_arg3) : S2051x2048.Idx → EReal) (ix2 rowTens j) := by
  have e : (V m c main_v4 : S1x2048.Idx → EReal)
      = extractStridedSlice S1x2048 ![2050, 0]
          (m ((c : Thread nD τ).loc main_arg3) : S2051x2048.Idx → EReal) slices_S2051x2048_S1x2048_2050_0 := by
    dsimp only [V, hostOps0]; after_results; all_goals rfl
  rw [e]
  exact slice2_axis0_apply 2050 _ _ (0 : Fin 1) j rowTens rfl

/-- The first bias as a one-row matrix. -/
theorem bias1_apply (c : Dev nD) (j : Fin 2048) :
    (V m c main_v5 : S1x2048.Idx → EReal) (ix2 (0 : Fin 1) j)
      = (m ((c : Thread nD τ).loc main_arg4) : S2048.Idx → EReal) (ix1 j) := by
  have e : (V m c main_v5 : S1x2048.Idx → EReal)
      = shapeCast S1x2048 (m ((c : Thread nD τ).loc main_arg4) : S2048.Idx → EReal) shapeCasts_S2048_S1x2048 := by
    dsimp only [V, hostOps0]; after_results; all_goals rfl
  rw [e]
  exact shapeCast_a_1a_apply _ _ (0 : Fin 1) j

/-- The second weight matrix. -/
theorem weight2_apply (c : Dev nD) (k : Fin 2048) (j : Fin 1024) :
    (V m c main_v6 : S2048x1024.Idx → EReal) (ix2 k j)
      = (m ((c : Thread nD τ).loc main_arg5) : S2048x1024.Idx → EReal) (ix2 k j) := by
  have e : (V m c main_v6 : S2048x1024.Idx → EReal)
      = truncf (F := Ideal) .bf16 (m ((c : Thread nD τ).loc main_arg5) : S2048x1024.Idx → EReal) bitsLt_bf16_f32 := by
    dsimp only [V, hostOps0]; after_results; all_goals rfl
  rw [e]
  exact truncf_apply _ _ _

/-- The second bias as a one-row matrix. -/
theorem bias2_apply (c : Dev nD) (j : Fin 1024) :
    (V m c main_v7 : S1x1024.Idx → EReal) (ix2 (0 : Fin 1) j)
      = (m ((c : Thread nD τ).loc main_arg6) : S1024.Idx → EReal) (ix1 j) := by
  have e : (V m c main_v7 : S1x1024.Idx → EReal)
      = shapeCast S1x1024 (m ((c : Thread nD τ).loc main_arg6) : S1024.Idx → EReal) shapeCasts_S1024_S1x1024 := by
    dsimp only [V, hostOps0]; after_results; all_goals rfl
  rw [e]
  exact shapeCast_a_1a_apply _ _ (0 : Fin 1) j

/-- The head's weight column. -/
theorem weightR_apply (c : Dev nD) (k : Fin 1024) :
    (V m c main_v8 : S1024x1.Idx → EReal) (ix2 k (0 : Fin 1))
      = (m ((c : Thread nD τ).loc main_arg7) : S1024x1.Idx → EReal) (ix2 k (0 : Fin 1)) := by
  have e : (V m c main_v8 : S1024x1.Idx → EReal)
      = truncf (F := Ideal) .bf16 (m ((c : Thread nD τ).loc main_arg7) : S1024x1.Idx → EReal) bitsLt_bf16_f32 := by
    dsimp only [V, hostOps0]; after_results; all_goals rfl
  rw [e]
  exact truncf_apply _ _ _

/-- The head's bias as a one-entry matrix. -/
theorem biasR_apply (c : Dev nD) :
    (V m c main_v9 : S1x1.Idx → EReal) (ix2 (0 : Fin 1) (0 : Fin 1))
      = (m ((c : Thread nD τ).loc main_arg8) : S1.Idx → EReal) (ix1 (0 : Fin 1)) := by
  have e : (V m c main_v9 : S1x1.Idx → EReal)
      = shapeCast S1x1 (m ((c : Thread nD τ).loc main_arg8) : S1.Idx → EReal) shapeCasts_S1_S1x1 := by
    dsimp only [V, hostOps0]; after_results; all_goals rfl
  rw [e]
  exact shapeCast_a_1a_apply _ _ (0 : Fin 1) (0 : Fin 1)

end Cert.DocHead.Host

end
-- ==== Proof.Blocks.lean ====
/-
  From the blocks to the array: after the kernel's run the result array holds, at batch row `r`, the score of row `r`.

  The grid has 64 points. Point `t` stages rows `256·t` to `256·t + 255` of the three batch arrays and writes back rows
  `256·t` to `256·t + 255` of the result; every other window holds its whole array at every point. So what point `t`
  stores at local row `p` is the score of batch row `256·t + p`, and since each batch row lies in exactly one point's
  block (`r / 256`), the blocks cover the result array.
-/
import proofs.«162911_j83528523973131_1_alg».proof.Proof.Gen.KernelIdeal.Value
import proofs.«162911_j83528523973131_1_alg».proof.Proof.Payload
import proofs.«162911_j83528523973131_1_alg».proof.Proof.HostArrays

noncomputable section

namespace Cert.DocHead.Blocks

open Idealize.ShloMosaic Idealize.ShloMosaic.TcCoe Idealize.ShloMosaic.ValueIdx Idealize.SL.Sem
open Cert.KernelIdeal Cert.KernelIdeal.Gen Cert.DocHead
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The index maps over the 64 points -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = t.val ∧ win0_12.index t (1 : Fin 2) = 0 :=
  (by decide +kernel : ∀ t : Fin grid0.N, _)

theorem point_lt (t : Fin cfg0.N) : t.val < 64 := by
  have h : t.val < grid0.N := t.isLt
  rw [N_0] at h
  exact h

/-- The batch row that local row `p` of point `t`'s block is. -/
def batchRow (t : Fin cfg0.N) (p : Fin 256) : Fin 16384 :=
  ⟨t.val * 256 + p.val, by have := point_lt t; have := p.isLt; omega⟩

/-! ## The blocks, each at its literal type -/

abbrev hidBlk (c : Dev nD) (t : Fin cfg0.N) : Vec Ideal S256x2048 .f32 := iblk m c 0 t
abbrev claimBlk (c : Dev nD) (t : Fin cfg0.N) : Vec Ideal S256x2048 .f32 := iblk m c 1 t
abbrev docBlk (c : Dev nD) (t : Fin cfg0.N) : Vec Ideal S256x2048 .f32 := iblk m c 2 t
abbrev mainBlk (c : Dev nD) (t : Fin cfg0.N) : Vec Ideal S2048x2048 .bf16 := iblk m c 3 t
abbrev alignBlk (c : Dev nD) (t : Fin cfg0.N) : Vec Ideal S1x2048 .f32 := iblk m c 4 t
abbrev divBlk (c : Dev nD) (t : Fin cfg0.N) : Vec Ideal S1x2048 .f32 := iblk m c 5 t
abbrev tensBlk (c : Dev nD) (t : Fin cfg0.N) : Vec Ideal S1x2048 .f32 := iblk m c 6 t
abbrev bias1Blk (c : Dev nD) (t : Fin cfg0.N) : Vec Ideal S1x2048 .f32 := iblk m c 7 t
abbrev weight2Blk (c : Dev nD) (t : Fin cfg0.N) : Vec Ideal S2048x1024 .bf16 := iblk m c 8 t
abbrev bias2Blk (c : Dev nD) (t : Fin cfg0.N) : Vec Ideal S1x1024 .f32 := iblk m c 9 t
abbrev headBlk (c : Dev nD) (t : Fin cfg0.N) : Vec Ideal S1024x1 .bf16 := iblk m c 10 t
abbrev biasRBlk (c : Dev nD) (t : Fin cfg0.N) : Vec Ideal S1x1 .f32 := iblk m c 11 t

/-- Window 0's block at point `t` is rows `256·t` to `256·t + 255` of its array. -/
theorem hidBlk_apply (c : Dev nD) (t : Fin cfg0.N) (p : Fin 256) (k : Fin 2048) :
    hidBlk m c t (ix2 p k) = (m ((c : Thread nD τ).loc main_arg0) : S16384x2048.Idx → EReal) (ix2 (batchRow t p) k) := by
  show V m c main_arg0 (((cfg0.win 0).blk t).view.emb (ix2 p k)) = _
  rw [V_main_arg0]
  refine congrArg _ ?_
  obtain ⟨e0, e1⟩ := idx0 t
  funext d; apply Fin.ext
  match d with
  | ⟨0, _⟩ => show win0_0.index t (0 : Fin 2) * 256 + 1 * p.val = t.val * 256 + p.val; omega
  | ⟨1, _⟩ => show win0_0.index t (1 : Fin 2) * 2048 + 1 * k.val = k.val; omega

/-- Window 1's block at point `t` is rows `256·t` to `256·t + 255` of its array. -/
theorem claimBlk_apply (c : Dev nD) (t : Fin cfg0.N) (p : Fin 256) (k : Fin 2048) :
    claimBlk m c t (ix2 p k) = (m ((c : Thread nD τ).loc main_arg1) : S16384x2048.Idx → EReal) (ix2 (batchRow t p) k) := by
  show V m c main_arg1 (((cfg0.win 1).blk t).view.emb (ix2 p k)) = _
  rw [V_main_arg1]
  refine congrArg _ ?_
  obtain ⟨e0, e1⟩ := idx1 t
  funext d; apply Fin.ext
  match d with
  | ⟨0, _⟩ => show win0_1.index t (0 : Fin 2) * 256 + 1 * p.val = t.val * 256 + p.val; omega
  | ⟨1, _⟩ => show win0_1.index t (1 : Fin 2) * 2048 + 1 * k.val = k.val; omega

/-- Window 2's block at point `t` is rows `256·t` to `256·t + 255` of its array. -/
theorem docBlk_apply (c : Dev nD) (t : Fin cfg0.N) (p : Fin 256) (k : Fin 2048) :
    docBlk m c t (ix2 p k) = (m ((c : Thread nD τ).loc main_arg2) : S16384x2048.Idx → EReal) (ix2 (batchRow t p) k) := by
  show V m c main_arg2 (((cfg0.win 2).blk t).view.emb (ix2 p k)) = _
  rw [V_main_arg2]
  refine congrArg _ ?_
  obtain ⟨e0, e1⟩ := idx2 t
  funext d; apply Fin.ext
  match d with
  | ⟨0, _⟩ => show win0_2.index t (0 : Fin 2) * 256 + 1 * p.val = t.val * 256 + p.val; omega
  | ⟨1, _⟩ => show win0_2.index t (1 : Fin 2) * 2048 + 1 * k.val = k.val; omega

/-- Window 3 holds its whole array at every point. -/
theorem mainBlk_apply (c : Dev nD) (t : Fin cfg0.N) (a : Fin 2048) (b : Fin 2048) :
    mainBlk m c t (ix2 a b) = (V m c main_v1 : S2048x2048.Idx → EReal) (ix2 a b) := by
  show V m c main_v1 (((cfg0.win 3).blk t).view.emb (ix2 a b)) = _
  refine congrArg _ ?_
  obtain ⟨e0, e1⟩ := idx3 t
  funext d; apply Fin.ext
  match d with
  | ⟨0, _⟩ => show win0_3.index t (0 : Fin 2) * 2048 + 1 * a.val = a.val; omega
  | ⟨1, _⟩ => show win0_3.index t (1 : Fin 2) * 2048 + 1 * b.val = b.val; omega

/-- Window 4 holds its whole array at every point. -/
theorem alignBlk_apply (c : Dev nD) (t : Fin cfg0.N) (a : Fin 1) (b : Fin 2048) :
    alignBlk m c t (ix2 a b) = (V m c main_v2 : S1x2048.Idx → EReal) (ix2 a b) := by
  show V m c main_v2 (((cfg0.win 4).blk t).view.emb (ix2 a b)) = _
  refine congrArg _ ?_
  obtain ⟨e0, e1⟩ := idx4 t
  funext d; apply Fin.ext
  match d with
  | ⟨0, _⟩ => show win0_4.index t (0 : Fin 2) * 1 + 1 * a.val = a.val; omega
  | ⟨1, _⟩ => show win0_4.index t (1 : Fin 2) * 2048 + 1 * b.val = b.val; omega

/-- Window 5 holds its whole array at every point. -/
theorem divBlk_apply (c : Dev nD) (t : Fin cfg0.N) (a : Fin 1) (b : Fin 2048) :
    divBlk m c t (ix2 a b) = (V m c main_v3 : S1x2048.Idx → EReal) (ix2 a b) := by
  show V m c main_v3 (((cfg0.win 5).blk t).view.emb (ix2 a b)) = _
  refine congrArg _ ?_
  obtain ⟨e0, e1⟩ := idx5 t
  funext d; apply Fin.ext
  match d with
  | ⟨0, _⟩ => show win0_5.index t (0 : Fin 2) * 1 + 1 * a.val = a.val; omega
  | ⟨1, _⟩ => show win0_5.index t (1 : Fin 2) * 2048 + 1 * b.val = b.val; omega

/-- Window 6 holds its whole array at every point. -/
theorem tensBlk_apply (c : Dev nD) (t : Fin cfg0.N) (a : Fin 1) (b : Fin 2048) :
    tensBlk m c t (ix2 a b) = (V m c main_v4 : S1x2048.Idx → EReal) (ix2 a b) := by
  show V m c main_v4 (((cfg0.win 6).blk t).view.emb (ix2 a b)) = _
  refine congrArg _ ?_
  obtain ⟨e0, e1⟩ := idx6 t
  funext d; apply Fin.ext
  match d with
  | ⟨0, _⟩ => show win0_6.index t (0 : Fin 2) * 1 + 1 * a.val = a.val; omega
  | ⟨1, _⟩ => show win0_6.index t (1 : Fin 2) * 2048 + 1 * b.val = b.val; omega

/-- Window 7 holds its whole array at every point. -/
theorem bias1Blk_apply (c : Dev nD) (t : Fin cfg0.N) (a : Fin 1) (b : Fin 2048) :
    bias1Blk m c t (ix2 a b) = (V m c main_v5 : S1x2048.Idx → EReal) (ix2 a b) := by
  show V m c main_v5 (((cfg0.win 7).blk t).view.emb (ix2 a b)) = _
  refine congrArg _ ?_
  obtain ⟨e0, e1⟩ := idx7 t
  funext d; apply Fin.ext
  match d with
  | ⟨0, _⟩ => show win0_7.index t (0 : Fin 2) * 1 + 1 * a.val = a.val; omega
  | ⟨1, _⟩ => show win0_7.index t (1 : Fin 2) * 2048 + 1 * b.val = b.val; omega

/-- Window 8 holds its whole array at every point. -/
theorem weight2Blk_apply (c : Dev nD) (t : Fin cfg0.N) (a : Fin 2048) (b : Fin 1024) :
    weight2Blk m c t (ix2 a b) = (V m c main_v6 : S2048x1024.Idx → EReal) (ix2 a b) := by
  show V m c main_v6 (((cfg0.win 8).blk t).view.emb (ix2 a b)) = _
  refine congrArg _ ?_
  obtain ⟨e0, e1⟩ := idx8 t
  funext d; apply Fin.ext
  match d with
  | ⟨0, _⟩ => show win0_8.index t (0 : Fin 2) * 2048 + 1 * a.val = a.val; omega
  | ⟨1, _⟩ => show win0_8.index t (1 : Fin 2) * 1024 + 1 * b.val = b.val; omega

/-- Window 9 holds its whole array at every point. -/
theorem bias2Blk_apply (c : Dev nD) (t : Fin cfg0.N) (a : Fin 1) (b : Fin 1024) :
    bias2Blk m c t (ix2 a b) = (V m c main_v7 : S1x1024.Idx → EReal) (ix2 a b) := by
  show V m c main_v7 (((cfg0.win 9).blk t).view.emb (ix2 a b)) = _
  refine congrArg _ ?_
  obtain ⟨e0, e1⟩ := idx9 t
  funext d; apply Fin.ext
  match d with
  | ⟨0, _⟩ => show win0_9.index t (0 : Fin 2) * 1 + 1 * a.val = a.val; omega
  | ⟨1, _⟩ => show win0_9.index t (1 : Fin 2) * 1024 + 1 * b.val = b.val; omega

/-- Window 10 holds its whole array at every point. -/
theorem headBlk_apply (c : Dev nD) (t : Fin cfg0.N) (a : Fin 1024) (b : Fin 1) :
    headBlk m c t (ix2 a b) = (V m c main_v8 : S1024x1.Idx → EReal) (ix2 a b) := by
  show V m c main_v8 (((cfg0.win 10).blk t).view.emb (ix2 a b)) = _
  refine congrArg _ ?_
  obtain ⟨e0, e1⟩ := idx10 t
  funext d; apply Fin.ext
  match d with
  | ⟨0, _⟩ => show win0_10.index t (0 : Fin 2) * 1024 + 1 * a.val = a.val; omega
  | ⟨1, _⟩ => show win0_10.index t (1 : Fin 2) * 1 + 1 * b.val = b.val; omega

/-- Window 11 holds its whole array at every point. -/
theorem biasRBlk_apply (c : Dev nD) (t : Fin cfg0.N) (a : Fin 1) (b : Fin 1) :
    biasRBlk m c t (ix2 a b) = (V m c main_v9 : S1x1.Idx → EReal) (ix2 a b) := by
  show V m c main_v9 (((cfg0.win 11).blk t).view.emb (ix2 a b)) = _
  refine congrArg _ ?_
  obtain ⟨e0, e1⟩ := idx11 t
  funext d; apply Fin.ext
  match d with
  | ⟨0, _⟩ => show win0_11.index t (0 : Fin 2) * 1 + 1 * a.val = a.val; omega
  | ⟨1, _⟩ => show win0_11.index t (1 : Fin 2) * 1 + 1 * b.val = b.val; omega

/-! ## What a point stores -/

/-- The result array the run ends with, on core `c`: `result` of the nine argument arrays as launched. -/
abbrev resultOf (c : Dev nD) : S16384x1.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- Point `t`'s stored value at local row `p` is the score of batch row `256·t + p`. -/
theorem stored_eq (c : Dev nD) (t : Fin cfg0.N) (p : Fin 256) :
    k0_pay1 (F := Ideal) (k0_pay4 (claimBlk m c t) (docBlk m c t))
        (k0_pay5 (hidBlk m c t) (claimBlk m c t) (docBlk m c t) (mainBlk m c t) (alignBlk m c t) (divBlk m c t))
        (tensBlk m c t) (bias1Blk m c t) (weight2Blk m c t) (bias2Blk m c t) (headBlk m c t) (biasRBlk m c t) (ix2 p (0 : Fin 1))
      = resultOf m c (ix2 (batchRow t p) (0 : Fin 1)) := by
  refine (Body.stored_apply (hidBlk m c t) (claimBlk m c t) (docBlk m c t) (mainBlk m c t) (alignBlk m c t) (divBlk m c t)
    (tensBlk m c t) (bias1Blk m c t) (weight2Blk m c t) (bias2Blk m c t) (headBlk m c t) (biasRBlk m c t)
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (fun k j => (mainBlk_apply m c t k j).trans (Host.mainRows_apply m c k j))
    (fun j => (alignBlk_apply m c t 0 j).trans (Host.alignRow_apply m c j))
    (fun j => (divBlk_apply m c t 0 j).trans (Host.divRow_apply m c j))
    (fun j => (tensBlk_apply m c t 0 j).trans (Host.tensRow_apply m c j))
    (fun j => (bias1Blk_apply m c t 0 j).trans (Host.bias1_apply m c j))
    (fun k j => (weight2Blk_apply m c t k j).trans (Host.weight2_apply m c k j))
    (fun j => (bias2Blk_apply m c t 0 j).trans (Host.bias2_apply m c j))
    (fun k => (headBlk_apply m c t k 0).trans (Host.weightR_apply m c k))
    ((biasRBlk_apply m c t 0 0).trans (Host.biasR_apply m c)) p).trans ?_
  have e0 : (fun k => hidBlk m c t (ix2 p k))
      = fun k => (m ((c : Thread nD τ).loc main_arg0) : S16384x2048.Idx → EReal) (ix2 (batchRow t p) k) :=
    funext fun k => hidBlk_apply m c t p k
  have e1 : (fun k => claimBlk m c t (ix2 p k))
      = fun k => (m ((c : Thread nD τ).loc main_arg1) : S16384x2048.Idx → EReal) (ix2 (batchRow t p) k) :=
    funext fun k => claimBlk_apply m c t p k
  have e2 : (fun k => docBlk m c t (ix2 p k))
      = fun k => (m ((c : Thread nD τ).loc main_arg2) : S16384x2048.Idx → EReal) (ix2 (batchRow t p) k) :=
    funext fun k => docBlk_apply m c t p k
  rw [e0, e1, e2]
  rfl

/-- What point `t` writes back is block `t` of the result array. -/
theorem flushed_eq (c : Dev nD) (t : Fin cfg0.N) :
    (dats m 0 c).flushed 12 t = ((cfg0.win 12).blk t).view.read (Elt Ideal) (resultOf m c) := by
  show (cfg0.win 12).cut (grid0.coords t) ((dats m 0 c).after 12 t) = _
  rw [after0_12]
  unfold out0_12
  rw [View.canon_unit_zero hz]
  simp only [View.ld_unit_zero (S := S256x2048) hz, View.ld_unit_zero (S := S2048x2048) hz, View.ld_unit_zero (S := S1x2048) hz,
    View.ld_unit_zero (S := S2048x1024) hz, View.ld_unit_zero (S := S1x1024) hz, View.ld_unit_zero (S := S1024x1) hz,
    View.ld_unit_zero (S := S1x1) hz]
  funext y
  obtain ⟨p, u, rfl⟩ : ∃ (p : Fin 256) (u : Fin 1), y = ix2 p u := ⟨y 0, y 1, eq_ix2 y⟩
  obtain rfl : u = 0 := Subsingleton.elim _ _
  have hrow : ((cfg0.win 12).blk t).view.emb (ix2 p (0 : Fin 1)) = ix2 (batchRow t p) (0 : Fin 1) := by
    obtain ⟨e0, e1⟩ := idx12 t
    funext d; apply Fin.ext
    match d with
    | ⟨0, _⟩ => show win0_12.index t (0 : Fin 2) * 256 + 1 * p.val = t.val * 256 + p.val; omega
    | ⟨1, _⟩ => show win0_12.index t (1 : Fin 2) * 1 + 1 * 0 = 0; omega
  show _ = resultOf m c (((cfg0.win 12).blk t).view.emb (ix2 p (0 : Fin 1)))
  rw [hrow]
  exact stored_eq m c t p

/-! ## The cover -/

/-- An index of the result array is in point `t`'s block iff each coordinate is in the block's range. -/
theorem mem_blk (t : Fin cfg0.N) (i : S16384x1.Idx) :
    i ∈ ((cfg0.win 12).blk t).view.set
      ↔ ∀ a : Fin 2, win0_12.index t a * S256x1.size a ≤ (i a).val ∧ (i a).val < win0_12.index t a * S256x1.size a + S256x1.size a := by
  show i ∈ ((View.whole main_v10).slice (win0_12.rect t)).set ↔ _
  rw [View.set_slice_whole, Rect.mem_set_unit]
  exact Iff.rfl

/-- Batch row `r` is in the block of point `r / 256`. -/
theorem covered (i : S16384x1.Idx) :
    ∃ t : Fin cfg0.N, (cfg0.win 12).flush t = true ∧ i ∈ ((cfg0.win 12).blk t).view.set := by
  have hi0 : (i 0).val < 16384 := (i 0).isLt
  have hi1 : (i 1).val < 1 := (i 1).isLt
  have hN : (i 0).val / 256 < cfg0.N := by
    show (i 0).val / 256 < grid0.N
    rw [N_0]; omega
  refine ⟨⟨(i 0).val / 256, hN⟩, flush0_12 _, ?_⟩
  rw [mem_blk]
  obtain ⟨e0, e1⟩ := idx12 ⟨(i 0).val / 256, hN⟩
  intro a
  match a with
  | ⟨0, _⟩ =>
    show win0_12.index ⟨(i 0).val / 256, hN⟩ (0 : Fin 2) * 256 ≤ (i 0).val
      ∧ (i 0).val < win0_12.index ⟨(i 0).val / 256, hN⟩ (0 : Fin 2) * 256 + 256
    rw [e0]
    show (i 0).val / 256 * 256 ≤ (i 0).val ∧ (i 0).val < (i 0).val / 256 * 256 + 256
    omega
  | ⟨1, _⟩ =>
    show win0_12.index ⟨(i 0).val / 256, hN⟩ (1 : Fin 2) * 1 ≤ (i 1).val
      ∧ (i 1).val < win0_12.index ⟨(i 0).val / 256, hN⟩ (1 : Fin 2) * 1 + 1
    omega

/-! ## The array and the run -/

/-- After the run the result array is `result` of the arguments. -/
theorem final (c : Dev nD) : (dats m 0 c).arrAt 12 cfg0.N = resultOf m c :=
  (dats m 0 c).arrAt_eq_of_cover 12 (resultOf m c) (fun t _ => flushed_eq m c t) covered

/-- The kernel's run: it terminates with the result array at `result` of the arguments and the arguments unchanged. -/
theorem run : θ_run defs (onTc (τ := τ) (main (F := Ideal))) ⟨m, fun _ => 0, ρ⟩ fun r => ∀ c : Dev nD,
      r.2.mem ((c : Thread nD τ).loc main_v10) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.DocHead.Blocks

end
-- ==== Proof.RefValue.lean ====
/-
  The reference's result, stage by stage, is `result` of its arguments.

  The reference normalises the claim and document rows (each entry divided by the row's clamped length) and takes the
  dot product of the normalised rows: the alignment in its second form. It then joins the hidden row with the alignment,
  the divergence and the tension into a row of 2051 entries and contracts it with the whole first weight matrix: the sum
  over 2051 weight rows is the sum over the first 2048 plus the three last terms, in that order, which is how the kernel
  adds them. The two further layers and the logistic function (written out as `1 / (1 + e^(-x))`) are as in the kernel.
  With the claim and document arrays real, the alignment's second form is its first (`alignUnit_eq_alignQuot`).
-/
import proofs.«162911_j83528523973131_1_alg».proof.Proof.Gen.ReferenceIdeal.Read
import proofs.«162911_j83528523973131_1_alg».proof.Proof.Spec
import Idealize.ShloMosaic.Lib.Pipeline.Value
import Idealize.ShloMosaic.Lib.ValueIdx
import Idealize.ShloMosaic.Lib.IdealHost

noncomputable section

namespace Cert.DocHead.Ref

open Idealize.ShloMosaic Idealize.ShloMosaic.ValueIdx Cert.ReferenceIdeal Cert.ReferenceIdeal.Gen Cert.ReferenceIdeal.Read Cert.DocHead

/-- Two indices of a rank-2 shape with equal coordinates are equal. -/
macro "idx_eq" : tactic =>
  `(tactic| exact funext fun a => Fin.ext (by match a with | ⟨0, _⟩ => rfl | ⟨1, _⟩ => rfl))
/-- The same for rank 1. -/
macro "idx_eq1" : tactic =>
  `(tactic| exact funext fun a => Fin.ext (by match a with | ⟨0, _⟩ => rfl))

variable (x0 x1 x2 : (⟨S16384x2048, .f32⟩ : BufTy).Contents (Elt Ideal)) (x3 : (⟨S2051x2048, .f32⟩ : BufTy).Contents (Elt Ideal))
  (x4 : (⟨S2048, .f32⟩ : BufTy).Contents (Elt Ideal)) (x5 : (⟨S2048x1024, .f32⟩ : BufTy).Contents (Elt Ideal))
  (x6 : (⟨S1024, .f32⟩ : BufTy).Contents (Elt Ideal)) (x7 : (⟨S1024x1, .f32⟩ : BufTy).Contents (Elt Ideal))
  (x8 : (⟨S1, .f32⟩ : BufTy).Contents (Elt Ideal))

/-! ## The clamped lengths -/

/-- The claim row's clamped length. -/
theorem claimNorm_apply (r : Fin 16384) (u : Fin 1) :
    val_main_v2 (F := Ideal) x1 (ix2 r u) = clampedNorm (fun k => x1 (ix2 r k)) := by
  rw [val_main_v2_apply, val_main_v0_apply, val_main_call0_v2_apply, val_main_call0_v1_apply, val_main_v1_apply,
    val_main_cst_apply, val_main_call0_cst_apply]
  have e : ∀ k, idx_main_call0_v1 (idx_main_call0_v2 (ix2 r u)) k = ix2 r k := fun k => by idx_eq
  simp only [e, val_main_call0_v0_apply, Ideal.ofBits_def, Ideal.ofBits_zero_f32, zero_add]
  rfl

/-- The document row's clamped length. -/
theorem docNorm_apply (r : Fin 16384) (u : Fin 1) :
    val_main_v7 (F := Ideal) x2 (ix2 r u) = clampedNorm (fun k => x2 (ix2 r k)) := by
  rw [val_main_v7_apply, val_main_v5_apply, val_main_call1_v2_apply, val_main_call1_v1_apply, val_main_v6_apply,
    val_main_cst_0_apply, val_main_call1_cst_apply]
  have e : ∀ k, idx_main_call1_v1 (idx_main_call1_v2 (ix2 r u)) k = ix2 r k := fun k => by idx_eq
  simp only [e, val_main_call1_v0_apply, Ideal.ofBits_def, Ideal.ofBits_zero_f32, zero_add]
  rfl

/-! ## The alignment, the divergence, the tension -/

/-- The alignment of row `r`: the dot product of the two normalised rows. -/
theorem align_apply (r : Fin 16384) (u : Fin 1) :
    val_main_v12 (F := Ideal) x1 x2 (ix2 r u) = alignUnit (fun k => x1 (ix2 r k)) (fun k => x2 (ix2 r k)) := by
  rw [val_main_v12_apply, val_main_v11_apply, val_main_cst_1_apply, Ideal.ofBits_def, Ideal.ofBits_zero_f32, zero_add]
  unfold alignUnit
  refine Finset.sum_congr rfl fun k _ => ?_
  have e : idx_main_v11 (idx_main_v12 (ix2 r u)) k = ix2 r k := by idx_eq
  have e3 : idx_main_v3 (ix2 r k) = ix2 r (0 : Fin 1) := by idx_eq
  have e8 : idx_main_v8 (ix2 r k) = ix2 r (0 : Fin 1) := by idx_eq
  rw [e, val_main_v10_apply, val_main_v4_apply, val_main_v9_apply, val_main_v3_apply, val_main_v8_apply, e3, e8,
    claimNorm_apply, docNorm_apply]
  rfl

/-- The divergence of row `r`. -/
theorem diverge_apply (r : Fin 16384) (u : Fin 1) :
    val_main_v14 (F := Ideal) x1 x2 (ix2 r u)
      = Ideal.ofBits .f32 0x3F800000#32 - alignUnit (fun k => x1 (ix2 r k)) (fun k => x2 (ix2 r k)) := by
  rw [val_main_v14_apply, val_main_v13_apply, val_main_cst_2_apply, align_apply]
  rfl

/-- The tension of row `r`. -/
theorem tension_apply (r : Fin 16384) (u : Fin 1) :
    val_main_v15 (F := Ideal) x1 x2 (ix2 r u)
      = (Ideal.ofBits .f32 0x3F800000#32 - alignUnit (fun k => x1 (ix2 r k)) (fun k => x2 (ix2 r k)))
        * (Ideal.ofBits .f32 0x3F800000#32 - alignUnit (fun k => x1 (ix2 r k)) (fun k => x2 (ix2 r k))) := by
  rw [val_main_v15_apply, diverge_apply]
  rfl

/-! ## The joined feature row -/

/-- Entries 0 to 2047 of the joined row are the hidden row. -/
theorem joined_main (r : Fin 16384) (k : Fin 2048) :
    val_main_v16 (F := Ideal) x0 x1 x2 (ix2 r (rowMain k)) = x0 (ix2 r k) := by
  unfold val_main_v16
  exact concatenate_apply_piece (α := EReal) (t := S16384x2051) (1 : Fin 2)
    [⟨S16384x2048, x0⟩, ⟨S16384x1, val_main_v12 (F := Ideal) x1 x2⟩, ⟨S16384x1, val_main_v14 (F := Ideal) x1 x2⟩, ⟨S16384x1, val_main_v15 (F := Ideal) x1 x2⟩]
    concatenates_S16384x2048_S16384x1_S16384x1_S16384x1_S16384x2051_d1
    (ix2 r (rowMain k)) 0 (by simp) S16384x2048 x0 rfl rfl 0 rfl (ix2 r k)
    (fun b hb => by
      match b with
      | ⟨0, _⟩ => rfl
      | ⟨1, _⟩ => exact absurd rfl hb)
    (Nat.zero_add _)

/-- Entry 2048 of the joined row is the alignment. -/
theorem joined_align (r : Fin 16384) :
    val_main_v16 (F := Ideal) x0 x1 x2 (ix2 r rowAlign) = val_main_v12 (F := Ideal) x1 x2 (ix2 r (0 : Fin 1)) := by
  unfold val_main_v16
  exact concatenate_apply_piece (α := EReal) (t := S16384x2051) (1 : Fin 2)
    [⟨S16384x2048, x0⟩, ⟨S16384x1, val_main_v12 (F := Ideal) x1 x2⟩, ⟨S16384x1, val_main_v14 (F := Ideal) x1 x2⟩, ⟨S16384x1, val_main_v15 (F := Ideal) x1 x2⟩]
    concatenates_S16384x2048_S16384x1_S16384x1_S16384x1_S16384x2051_d1
    (ix2 r rowAlign) 1 (by simp) S16384x1 (val_main_v12 (F := Ideal) x1 x2) rfl rfl 2048 rfl (ix2 r (0 : Fin 1))
    (fun b hb => by
      match b with
      | ⟨0, _⟩ => rfl
      | ⟨1, _⟩ => exact absurd rfl hb)
    rfl

/-- Entry 2049 of the joined row is the divergence. -/
theorem joined_div (r : Fin 16384) :
    val_main_v16 (F := Ideal) x0 x1 x2 (ix2 r rowDiv) = val_main_v14 (F := Ideal) x1 x2 (ix2 r (0 : Fin 1)) := by
  unfold val_main_v16
  exact concatenate_apply_piece (α := EReal) (t := S16384x2051) (1 : Fin 2)
    [⟨S16384x2048, x0⟩, ⟨S16384x1, val_main_v12 (F := Ideal) x1 x2⟩, ⟨S16384x1, val_main_v14 (F := Ideal) x1 x2⟩, ⟨S16384x1, val_main_v15 (F := Ideal) x1 x2⟩]
    concatenates_S16384x2048_S16384x1_S16384x1_S16384x1_S16384x2051_d1
    (ix2 r rowDiv) 2 (by simp) S16384x1 (val_main_v14 (F := Ideal) x1 x2) rfl rfl 2049 rfl (ix2 r (0 : Fin 1))
    (fun b hb => by
      match b with
      | ⟨0, _⟩ => rfl
      | ⟨1, _⟩ => exact absurd rfl hb)
    rfl

/-- Entry 2050 of the joined row is the tension. -/
theorem joined_tens (r : Fin 16384) :
    val_main_v16 (F := Ideal) x0 x1 x2 (ix2 r rowTens) = val_main_v15 (F := Ideal) x1 x2 (ix2 r (0 : Fin 1)) := by
  unfold val_main_v16
  exact concatenate_apply_piece (α := EReal) (t := S16384x2051) (1 : Fin 2)
    [⟨S16384x2048, x0⟩, ⟨S16384x1, val_main_v12 (F := Ideal) x1 x2⟩, ⟨S16384x1, val_main_v14 (F := Ideal) x1 x2⟩, ⟨S16384x1, val_main_v15 (F := Ideal) x1 x2⟩]
    concatenates_S16384x2048_S16384x1_S16384x1_S16384x1_S16384x2051_d1
    (ix2 r rowTens) 3 (by simp) S16384x1 (val_main_v15 (F := Ideal) x1 x2) rfl rfl 2050 rfl (ix2 r (0 : Fin 1))
    (fun b hb => by
      match b with
      | ⟨0, _⟩ => rfl
      | ⟨1, _⟩ => exact absurd rfl hb)
    rfl

/-! ## The layers -/

/-- One term of the first contraction: entry `c` of the joined row against weight row `c`. -/
theorem term_apply (r : Fin 16384) (j : Fin 2048) (c : Fin 2051) :
    val_main_v16 (F := Ideal) x0 x1 x2 (lidx_main_v17 (ix2 r j) c) * x3 (ridx_main_v17 (ix2 r j) c)
      = val_main_v16 (F := Ideal) x0 x1 x2 (ix2 r c) * x3 (ix2 c j) := by
  have el : lidx_main_v17 (ix2 r j) c = ix2 r c := by idx_eq
  have er : ridx_main_v17 (ix2 r j) c = ix2 c j := by idx_eq
  rw [el, er]

/-- The first layer at `(r, j)`. -/
theorem layer1_apply (r : Fin 16384) (j : Fin 2048) :
    val_main_v21 (F := Ideal) x0 x1 x2 x3 x4 (ix2 r j)
      = layer1 (alignUnit (fun k => x1 (ix2 r k)) (fun k => x2 (ix2 r k))) (fun k => x0 (ix2 r k)) x3 x4 j := by
  rw [val_main_v21_apply, val_main_v20_apply, val_main_v17_apply, val_main_v19_apply, val_main_v18_apply,
    val_main_call2_v0_apply, val_main_call2_cst_apply, Fin.sum_univ_castSucc, Fin.sum_univ_castSucc, Fin.sum_univ_castSucc]
  have e4 : idx_main_v18 (idx_main_v19 (ix2 r j)) = ix1 j := by idx_eq1
  have tm : ∀ k : Fin 2048, val_main_v16 (F := Ideal) x0 x1 x2 (lidx_main_v17 (ix2 r j) (rowMain k)) * x3 (ridx_main_v17 (ix2 r j) (rowMain k))
      = x0 (ix2 r k) * x3 (ix2 (rowMain k) j) := fun k => by rw [term_apply, joined_main]
  have ta : val_main_v16 (F := Ideal) x0 x1 x2 (lidx_main_v17 (ix2 r j) rowAlign) * x3 (ridx_main_v17 (ix2 r j) rowAlign)
      = alignUnit (fun k => x1 (ix2 r k)) (fun k => x2 (ix2 r k)) * x3 (ix2 rowAlign j) := by
    rw [term_apply, joined_align, align_apply]
  have td : val_main_v16 (F := Ideal) x0 x1 x2 (lidx_main_v17 (ix2 r j) rowDiv) * x3 (ridx_main_v17 (ix2 r j) rowDiv)
      = (Ideal.ofBits .f32 0x3F800000#32 - alignUnit (fun k => x1 (ix2 r k)) (fun k => x2 (ix2 r k))) * x3 (ix2 rowDiv j) := by
    rw [term_apply, joined_div, diverge_apply]
  have tt : val_main_v16 (F := Ideal) x0 x1 x2 (lidx_main_v17 (ix2 r j) rowTens) * x3 (ridx_main_v17 (ix2 r j) rowTens)
      = ((Ideal.ofBits .f32 0x3F800000#32 - alignUnit (fun k => x1 (ix2 r k)) (fun k => x2 (ix2 r k)))
          * (Ideal.ofBits .f32 0x3F800000#32 - alignUnit (fun k => x1 (ix2 r k)) (fun k => x2 (ix2 r k)))) * x3 (ix2 rowTens j) := by
    rw [term_apply, joined_tens, tension_apply]
  rw [e4, Finset.sum_congr rfl (fun k _ => tm k), ta, td, tt]
  rfl

/-- The second layer at `(r, j)`. -/
theorem layer2_apply (r : Fin 16384) (j : Fin 1024) :
    val_main_v26 (F := Ideal) x0 x1 x2 x3 x4 x5 x6 (ix2 r j)
      = layer2 (layer1 (alignUnit (fun k => x1 (ix2 r k)) (fun k => x2 (ix2 r k))) (fun k => x0 (ix2 r k)) x3 x4) x5 x6 j := by
  rw [val_main_v26_apply, val_main_v25_apply, val_main_v22_apply, val_main_v24_apply, val_main_v23_apply,
    val_main_call3_v0_apply, val_main_call3_cst_apply]
  have e6 : idx_main_v23 (idx_main_v24 (ix2 r j)) = ix1 j := by idx_eq1
  have el : ∀ k, lidx_main_v22 (ix2 r j) k = ix2 r k := fun k => by idx_eq
  have er : ∀ k, ridx_main_v22 (ix2 r j) k = ix2 k j := fun k => by idx_eq
  simp only [e6, el, er, layer1_apply]
  rfl

/-- The score of row `r`, the alignment in its second form. -/
theorem score_apply (r : Fin 16384) :
    val_main_v36 (F := Ideal) x0 x1 x2 x3 x4 x5 x6 x7 x8 (ix2 r (0 : Fin 1))
      = score (alignUnit (fun k => x1 (ix2 r k)) (fun k => x2 (ix2 r k))) (fun k => x0 (ix2 r k)) x3 x4 x5 x6 x7 x8 := by
  rw [val_main_v36_apply, val_main_v35_apply, val_main_cst_4_apply, val_main_v34_apply, val_main_v33_apply, val_main_cst_3_apply,
    val_main_v32_apply, val_main_v31_apply, val_main_v30_apply, val_main_v27_apply, val_main_v29_apply, val_main_v28_apply]
  have e8 : idx_main_v28 (idx_main_v29 (ix2 r (0 : Fin 1))) = ix1 (0 : Fin 1) := by idx_eq1
  have el : ∀ k, lidx_main_v27 (ix2 r (0 : Fin 1)) k = ix2 r k := fun k => by idx_eq
  have er : ∀ k, ridx_main_v27 (ix2 r (0 : Fin 1)) k = ix2 k (0 : Fin 1) := fun k => by idx_eq
  simp only [e8, el, er, layer2_apply, Ideal.ofBits_def, Ideal.ofBits_one_f32]
  rfl

/-! ## The whole result -/

/-- With the claim and document arrays real, the reference's result is `result` of its arguments. -/
theorem reference_eq (h1 : ∀ i, ∃ v : ℝ, x1 i = (v : EReal)) (h2 : ∀ i, ∃ v : ℝ, x2 i = (v : EReal)) :
    val_main_v36 (F := Ideal) x0 x1 x2 x3 x4 x5 x6 x7 x8 = result x0 x1 x2 x3 x4 x5 x6 x7 x8 := by
  funext i
  obtain ⟨r, u, rfl⟩ : ∃ (r : Fin 16384) (u : Fin 1), i = ix2 r u := ⟨i 0, i 1, eq_ix2 i⟩
  obtain rfl : u = 0 := Subsingleton.elim _ _
  rw [score_apply, alignUnit_eq_alignQuot _ _ (fun k => h1 _) (fun k => h2 _)]
  rfl

end Cert.DocHead.Ref

end
-- ==== Proof.Finite.lean ====
/-
  From the stated precondition to the fact the alignment law needs: every entry of the claim array and of the document
  array is a real number.

  The precondition is the conjunction, over the nine inputs, of "every entry's absolute value is below +∞". On the extended
  reals the absolute value of `x` is `max x (-x)`, which is +∞ exactly at the two infinities, so an entry that passes is a
  real.
-/
import proofs.«162911_j83528523973131_1_alg».proof.Pre_finite_inputs
import Idealize.ShloMosaic.PureOps.Ideal
import Idealize.ShloMosaic.Lib.ReduceAll
import Idealize.ShloMosaic.Lib.ValueIdx

noncomputable section

namespace Cert.DocHead.Finite

open Idealize.ShloMosaic Cert.Pre_finite_inputs

variable [Cert.Pre_finite_inputs.Facts]
open Cert.Pre_finite_inputs.Facts

instance : Subsingleton S_.Idx := ⟨fun a b => funext fun d => d.elim0⟩

/-- The bound the precondition compares against is +∞. -/
theorem inf_word : Ideal.ofBits .f32 0x7F800000#32 = ⊤ := by simp [Ideal.ofBits, Ideal.ieee]

/-- An extended real whose absolute value is below +∞ is a real. -/
theorem real_of_lt (x : EReal) (h : Ideal.cmp .olt (max x (-x)) (Ideal.ofBits .f32 0x7F800000#32) = 1#1) :
    ∃ r : ℝ, x = (r : EReal) := by
  rw [inf_word] at h
  have hlt : max x (-x) < ⊤ := by
    by_contra hn
    simp [Ideal.cmp, hn] at h
  induction x using EReal.rec with
  | bot => simp at hlt
  | coe r => exact ⟨r, rfl⟩
  | top => simp at hlt

/-- If all entries of a batch-sized array pass the comparison, each is a real. -/
theorem real_of_all (a : FVec Ideal S16384x2048 .f32) (init : IVec S_ 1)
    (e : Host.reduce IntOp.andi (cmpf .olt (Host.absf a)
          (broadcastInDim S16384x2048 ![] bcast_S_S16384x2048 (constant S_ .f32 0x7F800000#32)))
        init reducesTo_S16384x2048_S_d0_1 h_S_ ValueIdx.ix0 = 1#1)
    (i : S16384x2048.Idx) : ∃ r : ℝ, a i = (r : EReal) :=
  real_of_lt (a i) (Host.reduce_andi_all _ init _ h_S_ ValueIdx.ix0 e i)

/-- Under the precondition the claim array and the document array hold real numbers. -/
theorem rows_real (a0 a1 a2 : FVec Ideal S16384x2048 .f32) (a3 : FVec Ideal S2051x2048 .f32) (a4 : FVec Ideal S2048 .f32)
    (a5 : FVec Ideal S2048x1024 .f32) (a6 : FVec Ideal S1024 .f32) (a7 : FVec Ideal S1024x1 .f32) (a8 : FVec Ideal S1 .f32)
    (h : fn (F := Ideal) a0 a1 a2 a3 a4 a5 a6 a7 a8 = fun _ => 1#1) :
    (∀ i, ∃ r : ℝ, a1 i = (r : EReal)) ∧ (∀ i, ∃ r : ℝ, a2 i = (r : EReal)) := by
  have h0 := congrFun h ValueIdx.ix0
  dsimp only [fn, fn_part1, fn_part2] at h0
  obtain ⟨h38, -⟩ := IntOp.andi_eq_one.1 h0
  obtain ⟨h33, -⟩ := IntOp.andi_eq_one.1 h38
  obtain ⟨h28, -⟩ := IntOp.andi_eq_one.1 h33
  obtain ⟨h23, -⟩ := IntOp.andi_eq_one.1 h28
  obtain ⟨h18, -⟩ := IntOp.andi_eq_one.1 h23
  obtain ⟨h13, -⟩ := IntOp.andi_eq_one.1 h18
  obtain ⟨h8, h12⟩ := IntOp.andi_eq_one.1 h13
  obtain ⟨-, h7⟩ := IntOp.andi_eq_one.1 h8
  exact ⟨fun i => real_of_all a1 _ h7 i, fun i => real_of_all a2 _ h12 i⟩

end Cert.DocHead.Finite

end
-- ==== Proof.lean ====
/-
  A document-retrieval head over 16384 batch rows: a kernel that works on blocks of 256 rows against a plain reference.

  For a batch row with hidden row `h`, claim row `x` and document row `y` (2048 entries each), both programs compute
    a = cosine alignment of `x` and `y`, each length clamped below by `ε`,   d = 1 - a,   t = d · d,
    g = max 0 (h · W₁[0..2047] + a · W₁[2048] + d · W₁[2049] + t · W₁[2050] + b₁),
    s = max 0 (g · W₂ + b₂),   result = 1 / (1 + e^(-(s · Wᵣ + bᵣ))).
  They differ in two places. The kernel divides the dot product `∑ xₖ yₖ` by the product of the two clamped lengths, the
  reference divides each row by its clamped length and then takes the dot product; with `x` and `y` real the clamped
  lengths are positive reals and the two agree (Proof/Spec.lean), and this is the one place the precondition is used
  (Proof/Finite.lean: every entry of a finite array is a real). And the reference contracts the joined row
  `(h, a, d, t)` of 2051 entries with all of `W₁`, where the kernel adds the three feature terms to the product with the
  first 2048 rows: the same sum, associated the same way (Proof/RefValue.lean). Changes of float format are the identity on
  the extended reals, and the kernel's logistic operation is the reference's written-out quotient.

  The kernel's result array is read off its run block by block (Proof/Payload.lean: what a grid point stores at a row;
  Proof/HostArrays.lean: the weight pieces the host operations cut; Proof/Blocks.lean: the 64 blocks cover the array), the
  reference's off its run one operation at a time (Proof/RefValue.lean). Both end at `DocHead.result` of the arguments.
  The idealization rewrote no operation, so the kernel's idealized text is its own text.
-/
import proofs.«162911_j83528523973131_1_alg».proof.Defs
import proofs.«162911_j83528523973131_1_alg».proof.Proof.Gen.Kernel
import proofs.«162911_j83528523973131_1_alg».proof.Proof.Gen.Kernel.Skeleton
import proofs.«162911_j83528523973131_1_alg».proof.Proof.Gen.Kernel.Launch
import proofs.«162911_j83528523973131_1_alg».proof.Proof.Gen.Kernel.Points
import proofs.«162911_j83528523973131_1_alg».proof.Proof.Gen.Kernel.Frame
import proofs.«162911_j83528523973131_1_alg».proof.Proof.Gen.KernelIdeal
import proofs.«162911_j83528523973131_1_alg».proof.Proof.Gen.KernelIdeal.Skeleton
import proofs.«162911_j83528523973131_1_alg».proof.Proof.Gen.KernelIdeal.Launch
import proofs.«162911_j83528523973131_1_alg».proof.Proof.Gen.KernelIdeal.Points
import proofs.«162911_j83528523973131_1_alg».proof.Proof.Gen.KernelIdeal.Frame
import proofs.«162911_j83528523973131_1_alg».proof.Proof.Gen.ReferenceIdeal
import proofs.«162911_j83528523973131_1_alg».proof.Proof.Gen.Pre_finite_inputs
import proofs.«162911_j83528523973131_1_alg».proof.Proof.Gen.KernelIdeal.Value
import proofs.«162911_j83528523973131_1_alg».proof.Proof.Gen.ReferenceIdeal.Run
import proofs.«162911_j83528523973131_1_alg».proof.Proof.Gen.ReferenceIdeal.Read
import proofs.«162911_j83528523973131_1_alg».proof.Proof.Blocks
import proofs.«162911_j83528523973131_1_alg».proof.Proof.RefValue
import proofs.«162911_j83528523973131_1_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealized text. -/
theorem frame_kernelIdeal : Cert.frame_KernelIdeal := fun m ρ _ => Cert.KernelIdeal.Gen.frame m ρ

/-- The reference runs and leaves its arguments unchanged: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories that agree on the nine arguments, both programs end with the result array at `DocHead.result` of the
    kernel's arguments: the kernel by its run read block by block, the reference by its run read operation by operation,
    its alignment brought to the kernel's form because the claim and document arrays are real under the precondition. -/
theorem algebraic : Cert.algebraic_KernelIdeal_ReferenceIdeal := by
  intro m ρ m' ρ' hpre hagree
  refine ⟨fun c => Cert.DocHead.Blocks.resultOf m c, Cert.DocHead.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨hr1, hr2⟩ := Cert.DocHead.Finite.rows_real _ _ _ _ _ _ _ _ _ (hpre c)
  obtain ⟨a0, a1, a2, a3, a4, a5, a6, a7, a8⟩ := hagree c
  rw [Cert.ReferenceIdeal.Read.val_main_v36_eq, a0, a1, a2, a3, a4, a5, a6, a7, a8]
  exact Cert.DocHead.Ref.reference_eq _ _ _ _ _ _ _ _ _ hr1 hr2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
